-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8192x64 .f32) (main_arg1 : FVec F S8192x64 .f32) (main_arg2 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x64 : Shape := ⟨2, ![8192, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩
abbrev S64x1024 : Shape := ⟨2, ![64, 1024]⟩

abbrev nBuf : Space → Nat
  | .hbm => 21
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x64, .f32⟩
  | .hbm, ⟨12, _⟩ => ⟨S8192x64, .f32⟩
  | .hbm, ⟨13, _⟩ => ⟨S8192x64, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S1x8192, .f32⟩
  | .hbm, ⟨18, _⟩ => ⟨S8192x64, .bf16⟩
  | .hbm, ⟨19, _⟩ => ⟨S8192x64, .bf16⟩
  | .hbm, ⟨20, _⟩ => ⟨S8192x8192, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  shapeCasts_S8192_S1x8192 : S8192.ShapeCasts S1x8192
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .bf16 = 32 ∨ (Rect.block (s := S8192x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v13) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.ArdGram.lean ====
/-
  The function both programs compute, stated once over the three argument arrays and read at the extended reals.

  The inputs are two clouds of 8192 points in 64 dimensions, `x` and `y`, and one log-bandwidth per
  dimension, `l`.  Dimension `k` carries the weight `w k = exp (l k)`.  For a point `a r` the weighted square
  norm is `0 + ∑ k, (a r k · w k) · a r k` (the leading `0` is the sum's initial value), and for a pair of
  points the weighted inner product is `∑ k, (x r k · w k) · y s k`.  The weighted square distance between
  `x r` and `y s`, expanded, is `‖x r‖² + ‖y s‖² − 2 ⟨x r, y s⟩`; it is floored at `0` and the entry of the
  Gram matrix is `exp (−½ · that)`.

  The three float constants are kept as the patterns both programs print (`0`, `2`, `−½`): the same pattern
  stands on both sides, so none is ever evaluated.
-/
import Idealize.ShloMosaic.PureOps.Ideal
import Idealize.ShloMosaic.Lib.ValueIdx

noncomputable section

namespace Cert.ArdGram

open Idealize.ShloMosaic Idealize.ShloMosaic.ValueIdx

/-- A cloud of 8192 points in 64 dimensions, entry by entry. -/
abbrev Cloud := (⟨2, ![8192, 64]⟩ : Shape).Idx → EReal
/-- One log-bandwidth per dimension. -/
abbrev LogWidths := (⟨1, ![64]⟩ : Shape).Idx → EReal
/-- An 8192 × 8192 matrix, entry by entry. -/
abbrev Matrix8192 := (⟨2, ![8192, 8192]⟩ : Shape).Idx → EReal

/-- The pattern of `0`. -/
abbrev zeroBits : EReal := Ideal.ofBits .f32 0x00000000#32
/-- The pattern of `2`. -/
abbrev twoBits : EReal := Ideal.ofBits .f32 0x40000000#32
/-- The pattern of `−½`. -/
abbrev negHalfBits : EReal := Ideal.ofBits .f32 0xBF000000#32

/-- The weight of dimension `k`: the exponential of its log-bandwidth. -/
def weight (l : LogWidths) (k : Fin 64) : EReal := Ideal.exp (l (ix1 k))

/-- Coordinate `k` of point `r`, scaled by the dimension's weight. -/
def scaled (a : Cloud) (l : LogWidths) (r : Fin 8192) (k : Fin 64) : EReal := a (ix2 r k) * weight l k

/-- The weighted square norm of point `r`: the sum over the dimensions, from the initial value `0`. -/
def sqNorm (a : Cloud) (l : LogWidths) (r : Fin 8192) : EReal := zeroBits + ∑ k : Fin 64, scaled a l r k * a (ix2 r k)

/-- The weighted inner product of point `r` of `x` and point `s` of `y`. -/
def inner (x y : Cloud) (l : LogWidths) (r s : Fin 8192) : EReal := ∑ k : Fin 64, scaled x l r k * y (ix2 s k)

/-- The weighted square distance, expanded and floored at zero. -/
def sqDist (x y : Cloud) (l : LogWidths) (r s : Fin 8192) : EReal :=
  max (sqNorm x l r + sqNorm y l s - twoBits * inner x y l r s) zeroBits

/-- The Gram matrix of the squared-exponential kernel with one bandwidth per dimension. -/
def gram (x y : Cloud) (l : LogWidths) : Matrix8192 := fun i => Ideal.exp (negHalfBits * sqDist x y l (i 0) (i 1))

/-- The Gram matrix read at a pair of coordinates. -/
theorem gram_apply (x y : Cloud) (l : LogWidths) (r s : Fin 8192) :
    gram x y l (ix2 r s) = Ideal.exp (negHalfBits * sqDist x y l r s) := rfl

end Cert.ArdGram

end
-- ==== Proof.ReferenceGram.lean ====
/-
  The reference program's last stage, read at the extended reals, is the Gram matrix of `ArdGram`.

  The reference computes, stage by stage: the weights `exp l` broadcast along the points; each cloud scaled by
  the weights; the two vectors of weighted square norms as row sums; the matrix of weighted inner products as one
  contraction over the 64 dimensions; then, entry by entry, `exp (−½ · max (‖x r‖² + ‖y s‖² − 2 ⟨x r, y s⟩) 0)`.
  Each lemma below reads one of these stages at a pair of coordinates; the broadcasts only re-index.
-/
import proofs.«103589_j58256936402966_1_alg».proof.Proof.Gen.ReferenceIdeal.Read
import proofs.«103589_j58256936402966_1_alg».proof.Proof.ArdGram

noncomputable section

namespace Cert.ReferenceIdeal.RefGram

open Cert.ReferenceIdeal Cert.ReferenceIdeal.Gen Cert.ReferenceIdeal.Read Idealize.ShloMosaic Idealize.ShloMosaic.ValueIdx
open Cert.ArdGram

/-- The weights, broadcast along the first cloud's points, at point `r` and dimension `k`. -/
theorem weights_x (l : LogWidths) (r : Fin 8192) (k : Fin 64) : val_main_v2 (F := Ideal) l (ix2 r k) = weight l k := by
  rw [val_main_v2_apply, val_main_v1_apply, val_main_v0_apply]
  exact congrArg (fun j => Ideal.exp (l j)) (funext fun a => Fin.ext (by match a with | ⟨0, _⟩ => rfl))

/-- The same broadcast, made a second time for the second cloud. -/
theorem weights_y (l : LogWidths) (r : Fin 8192) (k : Fin 64) : val_main_v7 (F := Ideal) l (ix2 r k) = weight l k := by
  rw [val_main_v7_apply, val_main_v6_apply, val_main_v0_apply]
  exact congrArg (fun j => Ideal.exp (l j)) (funext fun a => Fin.ext (by match a with | ⟨0, _⟩ => rfl))

/-- The first cloud scaled by the weights. -/
theorem scaled_x (x : Cloud) (l : LogWidths) (r : Fin 8192) (k : Fin 64) :
    val_main_v3 (F := Ideal) x l (ix2 r k) = scaled x l r k := by
  rw [val_main_v3_apply, weights_x]; rfl

/-- The weighted square norm of point `r` of the first cloud: a row sum from the initial value `0`. -/
theorem sqNorm_x (x : Cloud) (l : LogWidths) (r : Fin 8192) : val_main_v5 (F := Ideal) x l (ix1 r) = sqNorm x l r := by
  rw [val_main_v5_apply]
  refine congrArg (zeroBits + ·) (Finset.sum_congr rfl fun k _ => ?_)
  have e : idx_main_v5 (ix1 r) k = ix2 r k := funext fun a => Fin.ext (by match a with | ⟨0, _⟩ => rfl | ⟨1, _⟩ => rfl)
  rw [e, val_main_v4_apply, scaled_x]; rfl

/-- The weighted square norm of point `s` of the second cloud. -/
theorem sqNorm_y (y : Cloud) (l : LogWidths) (s : Fin 8192) : val_main_v10 (F := Ideal) y l (ix1 s) = sqNorm y l s := by
  rw [val_main_v10_apply]
  refine congrArg (zeroBits + ·) (Finset.sum_congr rfl fun k _ => ?_)
  have e : idx_main_v10 (ix1 s) k = ix2 s k := funext fun a => Fin.ext (by match a with | ⟨0, _⟩ => rfl | ⟨1, _⟩ => rfl)
  rw [e, val_main_v9_apply, val_main_v8_apply, weights_y]; rfl

/-- The contraction over the dimensions, at entry `(r, s)`: the weighted inner product of the two points. -/
theorem inner_xy (x y : Cloud) (l : LogWidths) (r s : Fin 8192) :
    val_main_v11 (F := Ideal) x y l (ix2 r s) = inner x y l r s := by
  rw [val_main_v11_apply]
  refine Finset.sum_congr rfl fun k _ => ?_
  have el : lidx_main_v11 (ix2 r s) k = ix2 r k := funext fun a => Fin.ext (by match a with | ⟨0, _⟩ => rfl | ⟨1, _⟩ => rfl)
  have er : ridx_main_v11 (ix2 r s) k = ix2 s k := funext fun a => Fin.ext (by match a with | ⟨0, _⟩ => rfl | ⟨1, _⟩ => rfl)
  rw [el, er, scaled_x]

/-- The reference's result, as one array: the Gram matrix. -/
theorem result_eq (x y : Cloud) (l : LogWidths) : val_main_v24 (F := Ideal) x y l = gram x y l := by
  funext i
  obtain ⟨r, s, rfl⟩ : ∃ (r : Fin 8192) (s : Fin 8192), i = ix2 r s := ⟨i 0, i 1, eq_ix2 i⟩
  rw [val_main_v24_apply, val_main_v23_apply, val_main_v22_apply, val_main_v21_apply, val_main_v20_apply,
    val_main_v19_apply, val_main_v18_apply, val_main_v17_apply, val_main_v16_apply, val_main_v15_apply,
    val_main_v14_apply, val_main_v13_apply, val_main_v12_apply, inner_xy]
  have e0 : idx_main_v12 (idx_main_v14 (ix2 r s)) = ix1 r := funext fun a => Fin.ext (by match a with | ⟨0, _⟩ => rfl)
  have e1 : idx_main_v13 (idx_main_v15 (ix2 r s)) = ix1 s := funext fun a => Fin.ext (by match a with | ⟨0, _⟩ => rfl)
  rw [e0, e1, sqNorm_x, sqNorm_y]
  rfl

end Cert.ReferenceIdeal.RefGram

end
-- ==== Proof.LibColumnBroadcast.lean ====
/-
  A column broadcast along rows, read at an index.

  An `[a, 1]` array broadcast to `[a, b]` repeats its one column `b` times: the entry at `(p, c)` is the
  operand's entry at `(p, 0)`, whatever `c` is.  (The library reads the row form `[1, b] → [a, b]`; this is the
  column form, proved the same way from the general reading of a broadcast.)
-/
import Idealize.ShloMosaic.Lib.ValueIdx
import Idealize.ShloMosaic.Lib.Pipeline.Value

namespace Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.TilePayload.lean ====
/-
  What the kernel body stores into its output tile, read at one entry of the tile.

  The body holds a tile of 1024 scaled points of the first cloud (`a`), a tile of 1024 points of the second
  (`b`), the 1024 square norms of the first as a column (`u`) and the 1024 square norms of the second as a row
  (`v`).  It transposes `b`, multiplies `a` by it into a zero accumulator — so entry `(p, q)` of the product is
  `∑ k, a p k · b q k` —, broadcasts the column and the row over the tile, and stores
  `exp (−½ · max (u p + v q − 2 · ∑ k, a p k · b q k) 0)`.
-/
import proofs.«103589_j58256936402966_1_alg».proof.Proof.Gen.KernelIdeal.Skeleton
import proofs.«103589_j58256936402966_1_alg».proof.Proof.ArdGram
import proofs.«103589_j58256936402966_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open Cert.ArdGram

/-! ## The product's operand indices, axis by axis -/

theorem lhs_axis0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_axis1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_axis0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_axis1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-! ## The tile's matrix product -/

/-- Entry `(p, q)` of `a` times the transpose of `b`, accumulated into zero: the inner product of row `p` of `a`
    and row `q` of `b`. -/
theorem tile_inner (a b : FVec Ideal S1024x64 .bf16) (p q : Fin 1024) :
    (matmul (F := Ideal) dot_S1024x64_S64x1024_S1024x1024_1_0_0_1_n_n none (shapeCast S1024x64 a shapeCasts_S1024x64_S1024x64 : FVec Ideal S1024x64 .bf16)
        (transpose S64x1024 [1, 0] (shapeCast S1024x64 b shapeCasts_S1024x64_S1024x64 : FVec Ideal S1024x64 .bf16)
          transposes_S1024x64_p1_0_S64x1024 : FVec Ideal S64x1024 .bf16)
        (constant S1024x1024 .f32 0x00000000#32) (ix2 p q) : EReal)
      = ∑ k : Fin 64, (a (ix2 p k) : EReal) * (b (ix2 q k) : EReal) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er, shapeCast_self, shapeCast_self, transpose_ix2_apply]

/-! ## The stored value -/

/-- The body's stored value at entry `(p, q)` of the tile. -/
theorem payload_apply (a b : Vec Ideal S1024x64 .bf16) (u : Vec Ideal S1024x1 .f32) (v : Vec Ideal S1x1024 .f32)
    (p q : Fin 1024) :
    (k0_pay1 (F := Ideal) a b u v (ix2 p q) : EReal)
      = Ideal.exp (negHalfBits * max ((u (ix2 p (0 : Fin 1)) : EReal) + (v (ix2 (0 : Fin 1) q) : EReal)
          - twoBits * ∑ k : Fin 64, (a (ix2 p k) : EReal) * (b (ix2 q k) : EReal)) zeroBits) := by
  have hm := tile_inner a b p q
  have hu : (broadcastTo S1024x1024 (shapeCast S1024x1 u shapeCasts_S1024x1_S1024x1) broadcasts_S1024x1_S1024x1024 (ix2 p q) : EReal)
      = u (ix2 p (0 : Fin 1)) := by
    rw [shapeCast_self]; exact broadcastTo_a1_ab_apply u _ p q
  have hv : (broadcastTo S1024x1024 (shapeCast S1x1024 v shapeCasts_S1x1024_S1x1024) broadcasts_S1x1024_S1024x1024 (ix2 p q) : EReal)
      = v (ix2 (0 : Fin 1) q) := by
    rw [shapeCast_self]; exact broadcastTo_1b_ab_apply v _ p q
  unfold k0_pay1
  show Ideal.exp (negHalfBits * max (_ + _ - twoBits * _) zeroBits) = _
  exact congrArg (fun z : EReal => Ideal.exp (negHalfBits * max z zeroBits))
    (congrArg₂ (fun s t : EReal => s - twoBits * t) (congrArg₂ (fun s t : EReal => s + t) hu hv) hm)

end Cert.KernelIdeal.Tile

end
-- ==== Proof.HostWindows.lean ====
/-
  The arrays the kernel's surrounding host operations prepare, read at coordinates.

  Before the tiled region runs, the host operations compute from the arguments `x`, `y`, `l`:
  the first cloud scaled by the weights `exp l` (then narrowed to sixteen bits, which changes nothing at the
  extended reals); the second cloud (likewise narrowed); the weighted square norms of the first cloud as an
  `[8192, 1]` column; and those of the second as a `[1, 8192]` row.  The lemmas first read each pure stage at
  coordinates over any arrays, then say what the region finds in its four input arrays on a core.
-/
import proofs.«103589_j58256936402966_1_alg».proof.Proof.Gen.KernelIdeal.Frame
import proofs.«103589_j58256936402966_1_alg».proof.Proof.ArdGram
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx
open Cert.ArdGram

/-! ## The pure stages, over any arrays -/

/-- The weights `exp l`, broadcast along the points: at point `r` and dimension `k`, the weight of `k`. -/
theorem weights_apply (l : FVec Ideal S64 .f32) (r : Fin 8192) (k : Fin 64) :
    (broadcastInDim S8192x64 ![0, 1] bcast_S1x64_S8192x64_0_1
        (broadcastInDim S1x64 ![1] bcast_S64_S1x64_1 (Host.exp (F := Ideal) l)) (ix2 r k) : EReal) = weight l k := by
  refine (broadcastInDim_apply _ bcast_S1x64_S8192x64_0_1 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])).trans ?_
  refine (broadcastInDim_apply _ bcast_S64_S1x64_1 _ (ix2 (0 : Fin 1) k) (ix1 k) (fun a => match a with
    | ⟨0, _⟩ => by show k.val = if (64 : Nat) = 1 then 0 else k.val; rw [if_neg (by decide)])).trans ?_
  rfl

/-- A cloud times the broadcast weights, at point `r` and dimension `k`. -/
theorem scaled_apply (a : FVec Ideal S8192x64 .f32) (l : FVec Ideal S64 .f32) (r : Fin 8192) (k : Fin 64) :
    (mulf (F := Ideal) a (broadcastInDim S8192x64 ![0, 1] bcast_S1x64_S8192x64_0_1
        (broadcastInDim S1x64 ![1] bcast_S64_S1x64_1 (Host.exp (F := Ideal) l))) (ix2 r k) : EReal) = scaled a l r k := by
  show (a (ix2 r k) : EReal) * _ = _
  rw [weights_apply]; rfl

/-- The host's sum along the dimensions, from the initial value `0`, at point `r`. -/
theorem rowSum_apply (z : FVec Ideal S8192x64 .f32) (r : Fin 8192) :
    (Host.reduceAdd (F := Ideal) z (constant S_ .f32 0x00000000#32) reducesTo_S8192x64_S8192_d1 h_S_ (ix1 r) : EReal)
      = zeroBits + ∑ k : Fin 64, (z (ix2 r k) : EReal) := by
  simp only [Host.reduceAdd, Ideal.hostReduceAdd_def]
  rw [Ideal.hostReduceAdd_single reducesTo_S8192x64_S8192_d1 (by decide)]
  refine congrArg (_ + ·) (Finset.sum_congr rfl fun k _ => ?_)
  exact congrArg z (funext fun a => Fin.ext (by match a with | ⟨0, _⟩ => rfl | ⟨1, _⟩ => rfl))

/-- The weighted square norm of point `r`, as the host computes it. -/
theorem sqNorm_apply (a : FVec Ideal S8192x64 .f32) (l : FVec Ideal S64 .f32) (r : Fin 8192) :
    (Host.reduceAdd (F := Ideal) (mulf (mulf a (broadcastInDim S8192x64 ![0, 1] bcast_S1x64_S8192x64_0_1
        (broadcastInDim S1x64 ![1] bcast_S64_S1x64_1 (Host.exp (F := Ideal) l)))) a)
        (constant S_ .f32 0x00000000#32) reducesTo_S8192x64_S8192_d1 h_S_ (ix1 r) : EReal) = sqNorm a l r := by
  rw [rowSum_apply]
  refine congrArg (zeroBits + ·) (Finset.sum_congr rfl fun k _ => ?_)
  show _ * (a (ix2 r k) : EReal) = _
  rw [scaled_apply]

/-- A vector laid out as an `[8192, 1]` column, at row `r`. -/
theorem column_apply (z : FVec Ideal S8192 .f32) (r : Fin 8192) :
    (broadcastInDim S8192x1 ![0] bcast_S8192_S8192x1_0 z (ix2 r (0 : Fin 1)) : EReal) = z (ix1 r) :=
  broadcastInDim_apply _ bcast_S8192_S8192x1_0 z (ix2 r (0 : Fin 1)) (ix1 r) (fun a => match a with
    | ⟨0, _⟩ => by show r.val = if (8192 : Nat) = 1 then 0 else r.val; rw [if_neg (by decide)])

/-- A vector laid out as a `[1, 8192]` row, at column `s`. -/
theorem row_apply (z : FVec Ideal S8192 .f32) (s : Fin 8192) :
    (shapeCast S1x8192 z shapeCasts_S8192_S1x8192 (ix2 (0 : Fin 1) s) : EReal) = z (ix1 s) :=
  shapeCast_a_1a_apply z shapeCasts_S8192_S1x8192 0 s

/-! ## What the region finds on a core -/

variable (m : (ℓ : Loc nD τ sig) → Buf (Elt Ideal) ℓ)

/-- The first cloud as launched on core `c`. -/
abbrev argX (c : Dev nD) : FVec Ideal S8192x64 .f32 := m ((c : Thread nD τ).loc main_arg0)
/-- The second cloud as launched on core `c`. -/
abbrev argY (c : Dev nD) : FVec Ideal S8192x64 .f32 := m ((c : Thread nD τ).loc main_arg1)
/-- The log-bandwidths as launched on core `c`. -/
abbrev argL (c : Dev nD) : FVec Ideal S64 .f32 := m ((c : Thread nD τ).loc main_arg2)

/-- The region's first input array: the first cloud scaled by the weights. -/
theorem scaledCloud_apply (c : Dev nD) (r : Fin 8192) (k : Fin 64) :
    (V m c main_v13 (ix2 r k) : EReal) = scaled (argX m c) (argL m c) r k := by
  have e : @Eq (FVec Ideal S8192x64 .bf16) (V m c main_v13)
      (truncf .bf16 (mulf (F := Ideal) (argX m c) (broadcastInDim S8192x64 ![0, 1] bcast_S1x64_S8192x64_0_1
          (broadcastInDim S1x64 ![1] bcast_S64_S1x64_1 (Host.exp (F := Ideal) (argL m c))))) bitsLt_bf16_f32) := by
    dsimp only [Gen.V, Gen.hostOps0]; after_results; try rfl
  exact (congrFun e (ix2 r k)).trans (scaled_apply (argX m c) (argL m c) r k)

/-- The region's second input array: the second cloud. -/
theorem secondCloud_apply (c : Dev nD) (s : Fin 8192) (k : Fin 64) :
    (V m c main_v14 (ix2 s k) : EReal) = argY m c (ix2 s k) := by
  have e : @Eq (FVec Ideal S8192x64 .bf16) (V m c main_v14) (truncf .bf16 (argY m c) bitsLt_bf16_f32) := by
    dsimp only [Gen.V, Gen.hostOps0]; after_results; try rfl
  exact congrFun e (ix2 s k)

/-- The region's third input array: the first cloud's weighted square norms, as a column. -/
theorem normColumn_apply (c : Dev nD) (r : Fin 8192) :
    (V m c main_v6 (ix2 r (0 : Fin 1)) : EReal) = sqNorm (argX m c) (argL m c) r := by
  have e : @Eq (FVec Ideal S8192x1 .f32) (V m c main_v6)
      (broadcastInDim S8192x1 ![0] bcast_S8192_S8192x1_0
          (Host.reduceAdd (F := Ideal) (mulf (mulf (argX m c) (broadcastInDim S8192x64 ![0, 1] bcast_S1x64_S8192x64_0_1
            (broadcastInDim S1x64 ![1] bcast_S64_S1x64_1 (Host.exp (F := Ideal) (argL m c))))) (argX m c))
            (constant S_ .f32 0x00000000#32) reducesTo_S8192x64_S8192_d1 h_S_)) := by
    dsimp only [Gen.V, Gen.hostOps0]; after_results; try rfl
  exact (congrFun e (ix2 r (0 : Fin 1))).trans ((column_apply _ r).trans (sqNorm_apply (argX m c) (argL m c) r))

/-- The region's fourth input array: the second cloud's weighted square norms, as a row. -/
theorem normRow_apply (c : Dev nD) (s : Fin 8192) :
    (V m c main_v12 (ix2 (0 : Fin 1) s) : EReal) = sqNorm (argY m c) (argL m c) s := by
  have e : @Eq (FVec Ideal S1x8192 .f32) (V m c main_v12)
      (shapeCast S1x8192
          (Host.reduceAdd (F := Ideal) (mulf (mulf (argY m c) (broadcastInDim S8192x64 ![0, 1] bcast_S1x64_S8192x64_0_1
            (broadcastInDim S1x64 ![1] bcast_S64_S1x64_1 (Host.exp (F := Ideal) (argL m c))))) (argY m c))
            (constant S_ .f32 0x00000000#32) reducesTo_S8192x64_S8192_d1 h_S_) shapeCasts_S8192_S1x8192) := by
    dsimp only [Gen.V, Gen.hostOps0]; after_results; try rfl
  exact (congrFun e (ix2 (0 : Fin 1) s)).trans ((row_apply _ s).trans (sqNorm_apply (argY m c) (argL m c) s))

end Cert.KernelIdeal.HostSide

end
-- ==== Proof.TilesToGram.lean ====
/-
  From tiles to the whole matrix: after the kernel's run its result array is the Gram matrix of `ArdGram`.

  The grid has 8 × 8 points.  Point `t`, with block indices `(i, j)`, is given rows `1024·i …` of the scaled
  first cloud and of its square-norm column, rows `1024·j …` of the second cloud and the matching stretch of its
  square-norm row, and writes back the `1024 × 1024` tile at `(1024·i, 1024·j)` of the output.  Entry `(p, q)` of
  what it writes is therefore the Gram matrix's entry `(1024·i + p, 1024·j + q)`: the tile's inner products run
  over exactly the two points' coordinates, and the column and the row supply their two square norms.  Every
  output index lies in the tile of the point `(row / 1024, column / 1024)`, so the tiles cover the matrix.
-/
import proofs.«103589_j58256936402966_1_alg».proof.Proof.Gen.KernelIdeal.Value
import proofs.«103589_j58256936402966_1_alg».proof.Proof.TilePayload
import proofs.«103589_j58256936402966_1_alg».proof.Proof.HostWindows

noncomputable section

namespace Cert.KernelIdeal.GramValue

open Cert.KernelIdeal Cert.KernelIdeal.Gen Idealize.ShloMosaic Idealize.ShloMosaic.TcCoe Idealize.SL.Sem
open Idealize.ShloMosaic.Pipeline (Dat)
open Idealize.ShloMosaic.ValueIdx
open Cert.ArdGram Cert.KernelIdeal.Tile Cert.KernelIdeal.HostSide

variable (m : (ℓ : Loc nD τ sig) → Buf (Elt Ideal) ℓ) (ρ : Dev nD → PrngReg)

/-- The body's accesses all start at the origin of their buffers. -/
theorem origin : (![0, 0] : Fin 2 → Nat) = fun _ => 0 := funext fun a => by fin_cases a <;> rfl

/-- One entry of a tile, over any blocks: if the blocks hold, at the tile's row `p` and column `q`, the scaled
    coordinates of point `r`, the coordinates of point `s` and the two points' square norms, the stored value is
    the Gram matrix's entry `(r, s)`. -/
theorem tile_entry (x y : Cloud) (l : LogWidths) (a b : Vec Ideal S1024x64 .bf16) (u : Vec Ideal S1024x1 .f32)
    (v : Vec Ideal S1x1024 .f32) (p q : Fin 1024) (r s : Fin 8192)
    (ha : ∀ k : Fin 64, (a (ix2 p k) : EReal) = scaled x l r k) (hb : ∀ k : Fin 64, (b (ix2 q k) : EReal) = y (ix2 s k))
    (hu : (u (ix2 p (0 : Fin 1)) : EReal) = sqNorm x l r) (hv : (v (ix2 (0 : Fin 1) q) : EReal) = sqNorm y l s) :
    (k0_pay1 (F := Ideal) a b u v (ix2 p q) : EReal) = gram x y l (ix2 r s) := by
  rw [payload_apply, gram_apply, hu, hv]
  unfold sqDist Cert.ArdGram.inner
  simp only [ha, hb]

/-- The printed index maps, decided over the 64 points: the first cloud's tile, its norm column and the output
    tile share the row block; the second cloud's tile, its norm row and the output tile share the column block; the
    other block indices are zero; and the output's block indices are at most 7. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every pair of block indices is some point's. -/
theorem block_onto : ∀ (q0 : Fin 8) (q1 : Fin 8), ∃ t : Fin cfg0.N, win0_4.index t = ![q0.val, q1.val] :=
  (by decide +kernel : ∀ (q0 : Fin 8) (q1 : Fin 8), ∃ t : Fin grid0.N, win0_4.index t = ![q0.val, q1.val])

/-- What point `t` writes back is its tile of the Gram matrix of the arguments. -/
theorem flushed_eq (c : Dev nD) (t : Fin cfg0.N) :
    (dats m 0 c).flushed 4 t
      = ((cfg0.win 4).blk t).view.read (Elt Ideal) (gram (argX m c) (argY m c) (argL m c)) := by
  rw [Value.flushed4]
  unfold out0_4
  rw [View.canon_unit_zero origin]
  simp only [View.ld_unit_zero (S := S1024x64) origin, View.ld_unit_zero (S := S1024x1) origin,
    View.ld_unit_zero (S := S1x1024) origin]
  obtain ⟨a0, a1, b0, b1, u0, u1, v0, v1, o0, o1⟩ := block_indices t
  funext j
  obtain ⟨p, q, rfl⟩ : ∃ (p : Fin 1024) (q : Fin 1024), j = ix2 p q := ⟨j 0, j 1, eq_ix2 j⟩
  have hp : p.val < 1024 := p.isLt
  have hq : q.val < 1024 := q.isLt
  let r : Fin 8192 := ⟨win0_4.index t (0 : Fin 2) * 1024 + p.val, by omega⟩
  let s : Fin 8192 := ⟨win0_4.index t (1 : Fin 2) * 1024 + q.val, by omega⟩
  have hout : ((cfg0.win 4).blk t).view.emb (ix2 p q) = ix2 r s := funext fun ax => Fin.ext (by
    match ax with
    | ⟨0, _⟩ => show win0_4.index t (0 : Fin 2) * 1024 + 1 * p.val = win0_4.index t (0 : Fin 2) * 1024 + p.val; omega
    | ⟨1, _⟩ => show win0_4.index t (1 : Fin 2) * 1024 + 1 * q.val = win0_4.index t (1 : Fin 2) * 1024 + q.val; omega)
  show (k0_pay1 (F := Ideal) (iblk m c 0 t) (iblk m c 1 t) (iblk m c 2 t) (iblk m c 3 t) (ix2 p q) : EReal)
    = gram (argX m c) (argY m c) (argL m c) (((cfg0.win 4).blk t).view.emb (ix2 p q))
  rw [hout]
  refine tile_entry (argX m c) (argY m c) (argL m c) (iblk m c 0 t) (iblk m c 1 t) (iblk m c 2 t) (iblk m c 3 t) p q r s
    (fun k => ?_) (fun k => ?_) ?_ ?_
  · have hk : k.val < 64 := k.isLt
    show (V m c main_v13 (((cfg0.win 0).blk t).view.emb (ix2 p k)) : EReal) = _
    have e : ((cfg0.win 0).blk t).view.emb (ix2 p k) = ix2 r k := funext fun ax => Fin.ext (by
      match ax with
      | ⟨0, _⟩ => show win0_0.index t (0 : Fin 2) * 1024 + 1 * p.val = win0_4.index t (0 : Fin 2) * 1024 + p.val; omega
      | ⟨1, _⟩ => show win0_0.index t (1 : Fin 2) * 64 + 1 * k.val = k.val; omega)
    rw [e]; exact scaledCloud_apply m c r k
  · have hk : k.val < 64 := k.isLt
    show (V m c main_v14 (((cfg0.win 1).blk t).view.emb (ix2 q k)) : EReal) = _
    have e : ((cfg0.win 1).blk t).view.emb (ix2 q k) = ix2 s k := funext fun ax => Fin.ext (by
      match ax with
      | ⟨0, _⟩ => show win0_1.index t (0 : Fin 2) * 1024 + 1 * q.val = win0_4.index t (1 : Fin 2) * 1024 + q.val; omega
      | ⟨1, _⟩ => show win0_1.index t (1 : Fin 2) * 64 + 1 * k.val = k.val; omega)
    rw [e]; exact secondCloud_apply m c s k
  · show (V m c main_v6 (((cfg0.win 2).blk t).view.emb (ix2 p (0 : Fin 1))) : EReal) = _
    have e : ((cfg0.win 2).blk t).view.emb (ix2 p (0 : Fin 1)) = ix2 r (0 : Fin 1) := funext fun ax => Fin.ext (by
      match ax with
      | ⟨0, _⟩ => show win0_2.index t (0 : Fin 2) * 1024 + 1 * p.val = win0_4.index t (0 : Fin 2) * 1024 + p.val; omega
      | ⟨1, _⟩ => show win0_2.index t (1 : Fin 2) * 1 + 1 * 0 = 0; omega)
    rw [e]; exact normColumn_apply m c r
  · show (V m c main_v12 (((cfg0.win 3).blk t).view.emb (ix2 (0 : Fin 1) q)) : EReal) = _
    have e : ((cfg0.win 3).blk t).view.emb (ix2 (0 : Fin 1) q) = ix2 (0 : Fin 1) s := funext fun ax => Fin.ext (by
      match ax with
      | ⟨0, _⟩ => show win0_3.index t (0 : Fin 2) * 1 + 1 * 0 = 0; omega
      | ⟨1, _⟩ => show win0_3.index t (1 : Fin 2) * 1024 + 1 * q.val = win0_4.index t (1 : Fin 2) * 1024 + q.val; omega)
    rw [e]; exact normRow_apply m c s

/-- An index of the output is in point `t`'s tile iff each coordinate is in the tile's range on its axis. -/
theorem mem_tile (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v15).slice (win0_4.rect t)).set ↔ _
  rw [View.set_slice_whole, Rect.mem_set_unit]
  exact Iff.rfl

/-- The 64 tiles cover the output: index `(row, column)` lies in the tile of point `(row / 1024, column / 1024)`. -/
theorem tiles_cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The output array after the run is the Gram matrix of the arguments. -/
theorem final (c : Dev nD) : (dats m 0 c).arrAt 4 cfg0.N = gram (argX m c) (argY m c) (argL m c) :=
  (dats m 0 c).arrAt_eq_of_cover 4 (gram (argX m c) (argY m c) (argL m c)) (fun t _ => flushed_eq m c t) tiles_cover

/-- The kernel's run, re-posted: the result array at the Gram matrix of the arguments, the arguments unchanged. -/
theorem run : θ_run defs (onTc (τ := τ) (main (F := Ideal))) ⟨m, fun _ => 0, ρ⟩ fun r => ∀ c : Dev nD,
      r.2.mem ((c : Thread nD τ).loc main_v15) = gram (argX m c) (argY m c) (argL m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.GramValue

end
-- ==== Proof.lean ====
/-
  The certificate's claim, assembled.

  Both programs compute the Gram matrix of the squared-exponential kernel with one bandwidth per dimension,
  `K r s = exp (−½ · max (‖x r‖² + ‖y s‖² − 2 ⟨x r, y s⟩) 0)`, the norms and the inner product weighted by
  `exp l` (`ArdGram`).  The reference computes it array by array on the host (`ReferenceGram`).  The kernel prepares
  the scaled first cloud and the two vectors of square norms on the host (`HostWindows`), then an 8 × 8 grid of
  points each stores one 1024 × 1024 tile, the inner products taken by a matrix product into a zero accumulator
  (`TilePayload`); the tiles cover the matrix (`TilesToGram`).  The two sides are the same expression term by term:
  the only differences — a narrowing to sixteen bits, a zero accumulator, a transpose before the product, a reshape
  in place of a broadcast — vanish at the extended reals, and no law that needs finite inputs is used.

  The kernel's two frames are the generated ones; the reference's frame is its run with the result dropped; the
  idealization rewrote nothing, so `preserves` is trivial.
-/
import proofs.«103589_j58256936402966_1_alg».proof.Defs
import proofs.«103589_j58256936402966_1_alg».proof.Proof.Gen.Kernel
import proofs.«103589_j58256936402966_1_alg».proof.Proof.Gen.Kernel.Skeleton
import proofs.«103589_j58256936402966_1_alg».proof.Proof.Gen.Kernel.Launch
import proofs.«103589_j58256936402966_1_alg».proof.Proof.Gen.Kernel.Points
import proofs.«103589_j58256936402966_1_alg».proof.Proof.Gen.Kernel.Frame
import proofs.«103589_j58256936402966_1_alg».proof.Proof.Gen.KernelIdeal
import proofs.«103589_j58256936402966_1_alg».proof.Proof.Gen.KernelIdeal.Skeleton
import proofs.«103589_j58256936402966_1_alg».proof.Proof.Gen.KernelIdeal.Launch
import proofs.«103589_j58256936402966_1_alg».proof.Proof.Gen.KernelIdeal.Points
import proofs.«103589_j58256936402966_1_alg».proof.Proof.Gen.KernelIdeal.Frame
import proofs.«103589_j58256936402966_1_alg».proof.Proof.Gen.ReferenceIdeal
import proofs.«103589_j58256936402966_1_alg».proof.Proof.Gen.Pre_finite_inputs
import proofs.«103589_j58256936402966_1_alg».proof.Proof.Gen.KernelIdeal.Value
import proofs.«103589_j58256936402966_1_alg».proof.Proof.Gen.ReferenceIdeal.Run
import proofs.«103589_j58256936402966_1_alg».proof.Proof.Gen.ReferenceIdeal.Read
import proofs.«103589_j58256936402966_1_alg».proof.Proof.ReferenceGram
import proofs.«103589_j58256936402966_1_alg».proof.Proof.TilesToGram
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, both programs end with the Gram matrix of those arguments. -/
theorem algebraic : Cert.algebraic_KernelIdeal_ReferenceIdeal := by
  intro m ρ m' ρ' _ hagree
  refine ⟨fun c => Cert.ArdGram.gram (Cert.KernelIdeal.HostSide.argX m c) (Cert.KernelIdeal.HostSide.argY m c)
    (Cert.KernelIdeal.HostSide.argL m c), Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v24_eq _ _ _).trans (Cert.ReferenceIdeal.RefGram.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
